-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x4096 : Shape := ⟨2, ![10000, 4096]⟩
abbrev S10000 : Shape := ⟨1, ![10000]⟩
abbrev S4096 : Shape := ⟨1, ![4096]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x4096 : S_.BroadcastsInDim S10000x4096 (![] : Fin 0 → Fin S10000x4096.rank)
  reducesTo_S10000x4096_S_d0_1 : S10000x4096.ReducesTo [0, 1] S_
  bcast_S_S10000 : S_.BroadcastsInDim S10000 (![] : Fin 0 → Fin S10000.rank)
  reducesTo_S10000_S_d0 : S10000.ReducesTo [0] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S10000x128 .f32) (main_arg1 : FVec F S10000x4096 .f32) (main_arg2 : FVec F S10000 .f32) (main_arg3 : FVec F S4096 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x4096 .f32 := Host.absf main_arg1
  let main_cst_0 : FVec F S_ .f32 := constant S_ .f32 0x7F800000#32
  let main_v5 : FVec F S10000x4096 .f32 := broadcastInDim S10000x4096 ![] bcast_S_S10000x4096 main_cst_0
  let main_v6 : IVec S10000x4096 1 := cmpf .olt main_v4 main_v5
  let main_c_1 : IVec S_ 1 := constantI S_ 1 1#1
  let main_v7 : IVec S_ 1 := (fun x v => Host.reduce IntOp.andi x v reducesTo_S10000x4096_S_d0_1 h_S_) main_v6 main_c_1
  let main_v8 : IVec S_ 1 := andi main_v3 main_v7
  let main_v9 : FVec F S10000 .f32 := Host.absf main_arg2
  let main_cst_2 : FVec F S_ .f32 := constant S_ .f32 0x7F800000#32
  let main_v10 : FVec F S10000 .f32 := broadcastInDim S10000 ![] bcast_S_S10000 main_cst_2
  let main_v11 : IVec S10000 1 := cmpf .olt main_v9 main_v10
  let main_c_3 : IVec S_ 1 := constantI S_ 1 1#1
  let main_v12 : IVec S_ 1 := (fun x v => Host.reduce IntOp.andi x v reducesTo_S10000_S_d0 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S10000x128 : Shape := ⟨2, ![10000, 128]⟩
abbrev S10000x4096 : Shape := ⟨2, ![10000, 4096]⟩
abbrev S10000 : Shape := ⟨1, ![10000]⟩
abbrev S4096 : Shape := ⟨1, ![4096]⟩
abbrev S10000x1 : Shape := ⟨2, ![10000, 1]⟩
abbrev S128x10000 : Shape := ⟨2, ![128, 10000]⟩
abbrev S1x4096 : Shape := ⟨2, ![1, 4096]⟩
abbrev S10000x512 : Shape := ⟨2, ![10000, 512]⟩
abbrev S1x512 : Shape := ⟨2, ![1, 512]⟩
abbrev S128x512 : Shape := ⟨2, ![128, 512]⟩

abbrev nBuf : Space → Nat
  | .hbm => 12
  | .vmem => 7
  | .smem => 0
  | _ => 0

abbrev bufTy : (tb : Table) → Fin (tcTables nBuf tb) → BufTy
  | .hbm, ⟨0, _⟩ => ⟨S10000x128, .f32⟩
  | .hbm, ⟨1, _⟩ => ⟨S10000x4096, .f32⟩
  | .hbm, ⟨2, _⟩ => ⟨S10000, .f32⟩
  | .hbm, ⟨3, _⟩ => ⟨S4096, .f32⟩
  | .hbm, ⟨4, _⟩ => ⟨S10000x1, .f32⟩
  | .hbm, ⟨5, _⟩ => ⟨S10000x128, .f32⟩
  | .hbm, ⟨6, _⟩ => ⟨S10000x128, .f32⟩
  | .hbm, ⟨7, _⟩ => ⟨S128x10000, .f32⟩
  | .hbm, ⟨8, _⟩ => ⟨S10000x1, .f32⟩
  | .hbm, ⟨9, _⟩ => ⟨S10000x1, .bf16⟩
  | .hbm, ⟨10, _⟩ => ⟨S1x4096, .f32⟩
  | .hbm, ⟨11, _⟩ => ⟨S10000x128, .f32⟩
  | .local _ .vmem, ⟨0, _⟩ => ⟨S128x10000, .f32⟩
  | .local _ .vmem, ⟨1, _⟩ => ⟨S10000x512, .f32⟩
  | .local _ .vmem, ⟨2, _⟩ => ⟨S10000x512, .f32⟩
  | .local _ .vmem, ⟨3, _⟩ => ⟨S10000x1, .bf16⟩
  | .local _ .vmem, ⟨4, _⟩ => ⟨S1x512, .f32⟩
  | .local _ .vmem, ⟨5, _⟩ => ⟨S1x512, .f32⟩
  | .local _ .vmem, ⟨6, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_v0 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x10000 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S10000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10000x1 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S10000x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  transposes_S10000x128_S128x10000_1_0 : S10000x128.Transposes [1, 0] S128x10000
  shapeCasts_S10000_S10000x1 : S10000.ShapeCasts S10000x1
  bitsLt_bf16_f32 : FTy.bits .bf16 < FTy.bits .f32
  shapeCasts_S4096_S1x4096 : S4096.ShapeCasts S1x4096
  inb_S10000x128_S10000x128_0_0 : ∀ a, (![0, 0] : Fin 2 → Nat) a + S10000x128.size a ≤ S10000x128.size a
  h_S10000x128 : 0 < S10000x128.numel
  inb_S10000x512_S10000x512_0_0 : ∀ a, (![0, 0] : Fin 2 → Nat) a + S10000x512.size a ≤ S10000x512.size a
  h_S10000x512 : 0 < S10000x512.numel
  inb_S128x10000_S128x10000_0_0 : ∀ a, (![0, 0] : Fin 2 → Nat) a + S128x10000.size a ≤ S128x10000.size a
  h_S128x10000 : 0 < S128x10000.numel
  shapeCasts_S128x10000_S128x10000 : S128x10000.ShapeCasts S128x10000
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S128x512 : S1x512.Broadcasts S128x512
  shapeCasts_S10000x128_S10000x128 : S10000x128.ShapeCasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  dot_S128x10000_S10000x512_S128x512_1_0_0_1_n_n_wf : DotDims.WF S128x10000 S10000x512 S128x512 [1] [0] [0] [1] [] []
  dot_S10000x512_S128x512_S10000x128_1_1_0_0_n_n_wf : DotDims.WF S10000x512 S128x512 S10000x128 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x10000.size a ≤ S128x10000.size a
  hwx0_0 : ∀ i : grid0.Coords, EltTy.bits .f32 = 32 ∨ (Rect.block (s := S128x10000) S128x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x512.size a ≤ S10000x4096.size a
  hwx0_1 : ∀ i : grid0.Coords, EltTy.bits .f32 = 32 ∨ (Rect.block (s := S10000x4096) S10000x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S10000x1.size a
  hwx0_2 : ∀ i : grid0.Coords, EltTy.bits .bf16 = 32 ∨ (Rect.block (s := S10000x1) S10000x1.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4096.size a
  hwx0_3 : ∀ i : grid0.Coords, EltTy.bits .f32 = 32 ∨ (Rect.block (s := S1x4096) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S10000x128.size a ≤ S10000x128.size a
  hwx0_4 : ∀ i : grid0.Coords, EltTy.bits .f32 = 32 ∨ (Rect.block (s := S10000x128) S10000x128.size (cc0_transform_4 i) (hinb0_4 i)).WholeWords (EltTy.packing .f32)

variable [Facts₀]

def dot_S128x10000_S10000x512_S128x512_1_0_0_1_n_n : DotDims S128x10000 S10000x512 S128x512 where
  lhsContracting := [1]
  rhsContracting := [0]
  lhsNonContracting := [0]
  rhsNonContracting := [1]
  lhsBatch := []
  rhsBatch := []
  wf := dot_S128x10000_S10000x512_S128x512_1_0_0_1_n_n_wf
def dot_S10000x512_S128x512_S10000x128_1_1_0_0_n_n : DotDims S10000x512 S128x512 S10000x128 where
  lhsContracting := [1]
  rhsContracting := [1]
  lhsNonContracting := [0]
  rhsNonContracting := [0]
  lhsBatch := []
  rhsBatch := []
  wf := dot_S10000x512_S128x512_S10000x128_1_1_0_0_n_n_wf

abbrev win0_0 : Pipeline.Window sig grid0 :=
  Pipeline.Window.ofSpec (Memref.whole main_call0_v3) S128x10000.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v5) S10000x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v6) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S10000x128.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x4096 : Shape := ⟨2, ![10000, 4096]⟩
abbrev S10000 : Shape := ⟨1, ![10000]⟩
abbrev S4096 : Shape := ⟨1, ![4096]⟩
abbrev S10000x1 : Shape := ⟨2, ![10000, 1]⟩
abbrev S4096x10000 : Shape := ⟨2, ![4096, 10000]⟩
abbrev S4096x128 : Shape := ⟨2, ![4096, 128]⟩
abbrev S4096x1 : Shape := ⟨2, ![4096, 1]⟩

abbrev nBuf : Space → Nat
  | .hbm => 16
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x4096, .f32⟩
  | .hbm, ⟨2, _⟩ => ⟨S10000, .f32⟩
  | .hbm, ⟨3, _⟩ => ⟨S4096, .f32⟩
  | .hbm, ⟨4, _⟩ => ⟨S10000x1, .f32⟩
  | .hbm, ⟨5, _⟩ => ⟨S10000x128, .f32⟩
  | .hbm, ⟨6, _⟩ => ⟨S10000x128, .f32⟩
  | .hbm, ⟨7, _⟩ => ⟨S4096x10000, .f32⟩
  | .hbm, ⟨8, _⟩ => ⟨S4096x128, .f32⟩
  | .hbm, ⟨9, _⟩ => ⟨S4096x1, .f32⟩
  | .hbm, ⟨10, _⟩ => ⟨S4096x128, .f32⟩
  | .hbm, ⟨11, _⟩ => ⟨S4096x128, .f32⟩
  | .hbm, ⟨12, _⟩ => ⟨S10000x128, .f32⟩
  | .hbm, ⟨13, _⟩ => ⟨S10000x1, .f32⟩
  | .hbm, ⟨14, _⟩ => ⟨S10000x128, .f32⟩
  | .hbm, ⟨15, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]

class Facts₀ : Prop where
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  transposes_S10000x4096_S4096x10000_1_0 : S10000x4096.Transposes [1, 0] S4096x10000
  bcast_S4096_S4096x1_0 : S4096.BroadcastsInDim S4096x1 (![0] : Fin 1 → Fin S4096x1.rank)
  bcast_S4096x1_S4096x128_0_1 : S4096x1.BroadcastsInDim S4096x128 (![0, 1] : Fin 2 → Fin S4096x128.rank)
  dot_S4096x10000_S10000x128_S4096x128_1_0_0_1_n_n_wf : DotDims.WF S4096x10000 S10000x128 S4096x128 [1] [0] [0] [1] [] []
  dot_S10000x4096_S4096x128_S10000x128_1_0_0_1_n_n_wf : DotDims.WF S10000x4096 S4096x128 S10000x128 [1] [0] [0] [1] [] []

variable [Facts₀]

def dot_S4096x10000_S10000x128_S4096x128_1_0_0_1_n_n : DotDims S4096x10000 S10000x128 S4096x128 where
  lhsContracting := [1]
  rhsContracting := [0]
  lhsNonContracting := [0]
  rhsNonContracting := [1]
  lhsBatch := []
  rhsBatch := []
  wf := dot_S4096x10000_S10000x128_S4096x128_1_0_0_1_n_n_wf
def dot_S10000x4096_S4096x128_S10000x128_1_0_0_1_n_n : DotDims S10000x4096 S4096x128 S10000x128 where
  lhsContracting := [1]
  rhsContracting := [0]
  lhsNonContracting := [0]
  rhsNonContracting := [1]
  lhsBatch := []
  rhsBatch := []
  wf := dot_S10000x4096_S4096x128_S10000x128_1_0_0_1_n_n_wf

class Facts : Prop extends Facts₀ where

variable [Facts]
-- ==== Proof.HypergraphSpec.lean ====
/-
  The hypergraph convolution as ONE function of its four arguments, by coordinates, and the law that joins the two
  programs' arrangements of it.

  With node features `X` (10000 × 128), incidence matrix `H` (10000 nodes × 4096 hyperedges), node factors `Dv` and
  hyperedge factors `De`, the result at node `n`, feature `d` is

      Dv n · Σ_e H n e · ( De e · Σ_n' H n' e · (Dv n' · X n' d) ).

  One program computes the hyperedge sum whole. The other walks the hyperedges in 8 windows of 512 columns, holds the
  scaled features transposed (`XnT d n' = Dv n' · X n' d`), multiplies the two factors of the inner product in the other
  order, and adds each window's contribution to an accumulator that starts at zero. The two agree because a sum over
  4096 = 8 · 512 columns is the sum over the windows of the sums inside each window, and the product of extended reals
  commutes; addition of extended reals is a commutative monoid, so no finiteness is needed.
-/
import Idealize.ShloMosaic.Lib.ValueIdx
import Idealize.ShloMosaic.PureOps.Ideal

noncomputable section

namespace Cert.Hypergraph

open Idealize.ShloMosaic Idealize.ShloMosaic.ValueIdx

/-- The scaled node feature `Dv n · X n d`. -/
def scaled (X : (⟨2, ![10000, 128]⟩ : Shape).Idx → EReal) (Dv : (⟨1, ![10000]⟩ : Shape).Idx → EReal)
    (n : Fin 10000) (d : Fin 128) : EReal :=
  Dv (ix1 n) * X (ix2 n d)

/-- The feature `d` of hyperedge `e`: its factor times the sum, over the nodes, of incidence × scaled feature. -/
def edgeFeature (X : (⟨2, ![10000, 128]⟩ : Shape).Idx → EReal) (H : (⟨2, ![10000, 4096]⟩ : Shape).Idx → EReal)
    (Dv : (⟨1, ![10000]⟩ : Shape).Idx → EReal) (De : (⟨1, ![4096]⟩ : Shape).Idx → EReal)
    (e : Fin 4096) (d : Fin 128) : EReal :=
  De (ix1 e) * ∑ n' : Fin 10000, H (ix2 n' e) * scaled X Dv n' d

/-- The convolution at node `n`, feature `d`. -/
def convAt (X : (⟨2, ![10000, 128]⟩ : Shape).Idx → EReal) (H : (⟨2, ![10000, 4096]⟩ : Shape).Idx → EReal)
    (Dv : (⟨1, ![10000]⟩ : Shape).Idx → EReal) (De : (⟨1, ![4096]⟩ : Shape).Idx → EReal)
    (n : Fin 10000) (d : Fin 128) : EReal :=
  Dv (ix1 n) * ∑ e : Fin 4096, H (ix2 n e) * edgeFeature X H Dv De e d

/-- The convolution as an array. -/
def conv (X : (⟨2, ![10000, 128]⟩ : Shape).Idx → EReal) (H : (⟨2, ![10000, 4096]⟩ : Shape).Idx → EReal)
    (Dv : (⟨1, ![10000]⟩ : Shape).Idx → EReal) (De : (⟨1, ![4096]⟩ : Shape).Idx → EReal) :
    (⟨2, ![10000, 128]⟩ : Shape).Idx → EReal :=
  fun i => convAt X H Dv De (i 0) (i 1)

theorem conv_ix2 (X : (⟨2, ![10000, 128]⟩ : Shape).Idx → EReal) (H : (⟨2, ![10000, 4096]⟩ : Shape).Idx → EReal)
    (Dv : (⟨1, ![10000]⟩ : Shape).Idx → EReal) (De : (⟨1, ![4096]⟩ : Shape).Idx → EReal) (n : Fin 10000) (d : Fin 128) :
    conv X H Dv De (ix2 n d) = convAt X H Dv De n d := rfl

/-- The column of `H` at place `e'` of the `s`-th window of 512 columns (total in `s`: past the 8 windows it wraps). -/
def col (s : ℕ) (e' : Fin 512) : Fin 4096 := ⟨(512 * s + e'.val) % 4096, Nat.mod_lt _ (by decide)⟩

theorem col_val (s : ℕ) (hs : s < 8) (e' : Fin 512) : (col s e').val = 512 * s + e'.val := by
  have := e'.isLt
  show (512 * s + e'.val) % 4096 = _
  omega

/-- A sum over the 4096 columns is the sum, over the 8 windows, of the sums inside each window. -/
theorem sum_windows {M : Type*} [AddCommMonoid M] (f : Fin 4096 → M) :
    ∑ s ∈ Finset.range 8, ∑ e' : Fin 512, f (col s e') = ∑ e : Fin 4096, f e := by
  rw [Finset.sum_range (fun s => ∑ e' : Fin 512, f (col s e'))]
  rw [← Fintype.sum_prod_type' (f := fun (s : Fin 8) (e' : Fin 512) => f (col s.val e'))]
  refine Fintype.sum_equiv (finProdFinEquiv (m := 8) (n := 512)) _ _ fun p => congrArg f (Fin.ext ?_)
  obtain ⟨s, e'⟩ := p
  rw [col_val s.val s.isLt e']
  show 512 * s.val + e'.val = e'.val + 512 * s.val
  omega

/-- What the `s`-th window adds at node `n`, feature `d`, over the transposed scaled features `XnT` (128 × 10000) and
    the hyperedge factors held as one row `DeRow` (1 × 4096): the window's columns' incidence at `n` times the column's
    factor times the inner product of the scaled features with the column. -/
def windowTerm (XnT : (⟨2, ![128, 10000]⟩ : Shape).Idx → EReal) (H : (⟨2, ![10000, 4096]⟩ : Shape).Idx → EReal)
    (DeRow : (⟨2, ![1, 4096]⟩ : Shape).Idx → EReal) (s : ℕ) (n : Fin 10000) (d : Fin 128) : EReal :=
  ∑ e' : Fin 512, H (ix2 n (col s e')) *
    (DeRow (ix2 (0 : Fin 1) (col s e')) * ∑ n' : Fin 10000, XnT (ix2 d n') * H (ix2 n' (col s e')))

/-- THE LAW. The node factor (held as a column `DvCol`) times the sum of the 8 windows' terms is the convolution. -/
theorem windows_eq_conv (X : (⟨2, ![10000, 128]⟩ : Shape).Idx → EReal) (H : (⟨2, ![10000, 4096]⟩ : Shape).Idx → EReal)
    (Dv : (⟨1, ![10000]⟩ : Shape).Idx → EReal) (De : (⟨1, ![4096]⟩ : Shape).Idx → EReal)
    (XnT : (⟨2, ![128, 10000]⟩ : Shape).Idx → EReal) (DeRow : (⟨2, ![1, 4096]⟩ : Shape).Idx → EReal)
    (DvCol : (⟨2, ![10000, 1]⟩ : Shape).Idx → EReal)
    (hX : ∀ (d : Fin 128) (n' : Fin 10000), XnT (ix2 d n') = scaled X Dv n' d)
    (hDe : ∀ e : Fin 4096, DeRow (ix2 (0 : Fin 1) e) = De (ix1 e))
    (hDv : ∀ n : Fin 10000, DvCol (ix2 n (0 : Fin 1)) = Dv (ix1 n))
    (n : Fin 10000) (d : Fin 128) :
    DvCol (ix2 n (0 : Fin 1)) * ∑ s ∈ Finset.range 8, windowTerm XnT H DeRow s n d = convAt X H Dv De n d := by
  unfold convAt windowTerm
  rw [hDv n, sum_windows (fun e => H (ix2 n e) * (DeRow (ix2 (0 : Fin 1) e) * ∑ n' : Fin 10000, XnT (ix2 d n') * H (ix2 n' e)))]
  refine congrArg (Dv (ix1 n) * ·) (Finset.sum_congr rfl fun e _ => ?_)
  unfold edgeFeature
  rw [hDe e]
  refine congrArg (fun z => H (ix2 n e) * (De (ix1 e) * z)) (Finset.sum_congr rfl fun n' _ => ?_)
  rw [hX d n', mul_comm]

end Cert.Hypergraph

end
-- ==== Proof.RefIsConv.lean ====
/-
  The reference's result is the hypergraph convolution of its arguments.

  Read one operation at a time, at an index given by coordinates: the first product is the scaled feature
  `Dv n' · X n' d`; the transposed incidence matrix at `(e, n')` is the matrix at `(n', e)`, so the first contraction at
  `(e, d)` is `Σ_n' H n' e · (Dv n' · X n' d)`; its product with the broadcast hyperedge factor is the hyperedge feature;
  the second contraction at `(n, d)` sums incidence × hyperedge feature over the hyperedges; and the last product
  multiplies by the node factor. Each broadcast reads its operand at the coordinate it keeps.
-/
import proofs.«129705_g12275016532625_cont_fleet_158_22_alg».proof.Proof.Gen.ReferenceIdeal.Read
import proofs.«129705_g12275016532625_cont_fleet_158_22_alg».proof.Proof.HypergraphSpec

noncomputable section

namespace Cert.ReferenceIdeal.RefValue

open Cert.ReferenceIdeal Cert.ReferenceIdeal.Gen Cert.ReferenceIdeal.Read Idealize.ShloMosaic Idealize.ShloMosaic.ValueIdx
open Cert.Hypergraph

variable (x0 : (⟨S10000x128, .f32⟩ : BufTy).Contents (Elt Ideal)) (x1 : (⟨S10000x4096, .f32⟩ : BufTy).Contents (Elt Ideal))
  (x2 : (⟨S10000, .f32⟩ : BufTy).Contents (Elt Ideal)) (x3 : (⟨S4096, .f32⟩ : BufTy).Contents (Elt Ideal))

/-- The first product at `(n', d)`: the node factor of `n'`, broadcast along the row, times the feature. -/
theorem scaled_stage (n' : Fin 10000) (d : Fin 128) :
    val_main_v2 (F := Ideal) x0 x2 (ix2 n' d) = scaled x0 x2 n' d := by
  rw [val_main_v2_apply, val_main_v1_apply, val_main_v0_apply]
  have e : idx_main_v0 (idx_main_v1 (ix2 n' d)) = ix1 n' :=
    funext fun a => Fin.ext (by match a with | ⟨0, _⟩ => rfl)
  rw [e]
  rfl

/-- The transposed incidence matrix at `(e, n')` is the matrix at `(n', e)`. -/
theorem transposed_stage (e : Fin 4096) (n' : Fin 10000) :
    val_main_v3 (F := Ideal) x1 (ix2 e n') = x1 (ix2 n' e) := by
  rw [val_main_v3_apply]
  exact congrArg x1 (funext fun a => Fin.ext (by match a with | ⟨0, _⟩ => rfl | ⟨1, _⟩ => rfl))

/-- The hyperedge features at `(e, d)`: the hyperedge factor times the contraction over the nodes. -/
theorem edge_stage (e : Fin 4096) (d : Fin 128) :
    val_main_v7 (F := Ideal) x0 x1 x2 x3 (ix2 e d) = edgeFeature x0 x1 x2 x3 e d := by
  rw [val_main_v7_apply, val_main_v6_apply, val_main_v5_apply, val_main_v4_apply]
  have e5 : idx_main_v5 (idx_main_v6 (ix2 e d)) = ix1 e :=
    funext fun a => Fin.ext (by match a with | ⟨0, _⟩ => rfl)
  have el : ∀ k : Fin 10000, lidx_main_v4 (ix2 e d) k = ix2 e k := fun k =>
    funext fun a => Fin.ext (by match a with | ⟨0, _⟩ => rfl | ⟨1, _⟩ => rfl)
  have er : ∀ k : Fin 10000, ridx_main_v4 (ix2 e d) k = ix2 k d := fun k =>
    funext fun a => Fin.ext (by match a with | ⟨0, _⟩ => rfl | ⟨1, _⟩ => rfl)
  rw [e5]
  unfold edgeFeature
  show x3 (ix1 e) * _ = x3 (ix1 e) * _
  refine congrArg (x3 (ix1 e) * ·) (Finset.sum_congr rfl fun k _ => ?_)
  rw [el k, er k, transposed_stage, scaled_stage]

/-- The reference's last stage is the convolution of the four arguments. -/
theorem ref_is_conv : val_main_v11 (F := Ideal) x0 x1 x2 x3 = conv x0 x1 x2 x3 := by
  funext i
  obtain ⟨n, d, rfl⟩ : ∃ (n : Fin 10000) (d : Fin 128), i = ix2 n d := ⟨i 0, i 1, eq_ix2 i⟩
  rw [conv_ix2, val_main_v11_apply, val_main_v10_apply, val_main_v9_apply, val_main_v8_apply]
  have e9 : idx_main_v9 (idx_main_v10 (ix2 n d)) = ix1 n :=
    funext fun a => Fin.ext (by match a with | ⟨0, _⟩ => rfl)
  have el : ∀ k : Fin 4096, lidx_main_v8 (ix2 n d) k = ix2 n k := fun k =>
    funext fun a => Fin.ext (by match a with | ⟨0, _⟩ => rfl | ⟨1, _⟩ => rfl)
  have er : ∀ k : Fin 4096, ridx_main_v8 (ix2 n d) k = ix2 k d := fun k =>
    funext fun a => Fin.ext (by match a with | ⟨0, _⟩ => rfl | ⟨1, _⟩ => rfl)
  rw [e9]
  unfold convAt
  show x2 (ix1 n) * _ = x2 (ix1 n) * _
  refine congrArg (x2 (ix1 n) * ·) (Finset.sum_congr rfl fun k _ => ?_)
  rw [el k, er k, edge_stage]

end Cert.ReferenceIdeal.RefValue

end
-- ==== Proof.LibColumnLayout.lean ====
/-
  Column vectors read at an index given by coordinates: an `[a]` vector viewed as the column `[a, 1]` and back, and a
  column `[a, 1]` broadcast along its rows to `[a, b]`. These are the keepdims forms of a row reduction: the reduction
  leaves one value per row, the cast makes it a column, the broadcast spreads it over the row again. Each lemma is the
  library's index lemma for the operation (`shapeCast_apply`, `broadcastTo_apply`) with both indices written by
  coordinates (`ix1`, `ix2`), so that it applies to a printed operation by unification, at any extents.
-/
import Idealize.ShloMosaic.Lib.Pipeline.Value
import Idealize.ShloMosaic.Lib.ValueIdx
import Idealize.ShloMosaic.PureOps.Reduce

namespace Idealize.ShloMosaic.ValueIdx

open Idealize.ShloMosaic

variable {α : Type}

/-- An `[a]` vector cast to the column `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` cast to the vector `[a]` reads, at `p`, the operand at `(p, 0)`. -/
theorem shapeCast_a1_a_apply {a : ℕ} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Reducing an `[a, b]` array along its rows (axis 1): the source index over the result index `p` with coordinate `k` on
    the dropped axis is `(p, k)`. -/
theorem lift_row {a b : ℕ} (h : (⟨2, ![a, b]⟩ : Shape).Reduces [1] ⟨1, ![a]⟩) (p : Fin a) (k : Fin b) :
    h.lift (ix1 p) k = ix2 p k := by
  funext d
  apply Fin.ext
  match d with
  | ⟨0, _⟩ => rfl
  | ⟨1, _⟩ => rfl

end Idealize.ShloMosaic.ValueIdx
-- ==== Proof.WindowPayloads.lean ====
/-
  The kernel body's three stored values, read at an index at the exact instance.

  The body zeroes the accumulator at the first window; at every window it adds, at node `n` and feature `d`, the sum
  over the window's 512 columns `e'` of `Hw n e' · (de e' · Σ_n' xnt d n' · Hw n' e')` — the first matrix product
  contracts the nodes (`xnt` is 128 × 10000, the window `Hw` is 10000 × 512), the row `de` is spread over the 128 rows,
  and the second product contracts the window's columns of `Hw` (10000 × 512) against the 128 × 512 product —; and at
  the last window it multiplies row `n` by the column entry `dv n`. Both matrix products start from a zero
  accumulator, so each is the plain sum of products; a change of float format is the identity here.
-/
import proofs.«129705_g12275016532625_cont_fleet_158_22_alg».proof.Proof.Gen.KernelIdeal.Frame
import proofs.«129705_g12275016532625_cont_fleet_158_22_alg».proof.Proof.LibColumnLayout
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Bridge

open Cert.KernelIdeal Cert.KernelIdeal.Gen Idealize.ShloMosaic Idealize.ShloMosaic.ValueIdx

/-! ## The first product: the scaled features (128 × 10000) against a window of the incidence matrix (10000 × 512) -/

theorem lhs_nodes_0 (i : S128x512.Idx) (q : dot_S128x10000_S10000x512_S128x512_1_0_0_1_n_n.contr.Idx) :
    (dot_S128x10000_S10000x512_S128x512_1_0_0_1_n_n.lhsIdx i q 0).val = (i 0).val := by
  unfold DotDims.lhsIdx
  rw [dif_neg (show ¬(0 : Fin S128x10000.rank) ∈ dot_S128x10000_S10000x512_S128x512_1_0_0_1_n_n.lhsBatch by decide), dif_pos (show (0 : Fin S128x10000.rank) ∈ dot_S128x10000_S10000x512_S128x512_1_0_0_1_n_n.lhsNonContracting by decide)]
  rfl
theorem lhs_nodes_1 (i : S128x512.Idx) (q : dot_S128x10000_S10000x512_S128x512_1_0_0_1_n_n.contr.Idx) :
    (dot_S128x10000_S10000x512_S128x512_1_0_0_1_n_n.lhsIdx i q 1).val = (q ⟨0, by decide⟩).val :=
  dot_S128x10000_S10000x512_S128x512_1_0_0_1_n_n.lhsIdx_val_of_single rfl i q
theorem rhs_nodes_0 (i : S128x512.Idx) (q : dot_S128x10000_S10000x512_S128x512_1_0_0_1_n_n.contr.Idx) :
    (dot_S128x10000_S10000x512_S128x512_1_0_0_1_n_n.rhsIdx i q 0).val = (q ⟨0, by decide⟩).val :=
  dot_S128x10000_S10000x512_S128x512_1_0_0_1_n_n.rhsIdx_val_of_single rfl i q
theorem rhs_nodes_1 (i : S128x512.Idx) (q : dot_S128x10000_S10000x512_S128x512_1_0_0_1_n_n.contr.Idx) :
    (dot_S128x10000_S10000x512_S128x512_1_0_0_1_n_n.rhsIdx i q 1).val = (i 1).val := by
  unfold DotDims.rhsIdx
  rw [dif_neg (show ¬(1 : Fin S10000x512.rank) ∈ dot_S128x10000_S10000x512_S128x512_1_0_0_1_n_n.rhsBatch by decide), dif_pos (show (1 : Fin S10000x512.rank) ∈ dot_S128x10000_S10000x512_S128x512_1_0_0_1_n_n.rhsNonContracting by decide)]
  rfl

/-- The first product at `(d, e')`: the sum over the nodes of scaled feature × incidence. -/
theorem nodes_product_apply (xnt : FVec Ideal S128x10000 .f32) (hw : FVec Ideal S10000x512 .f32) (d : Fin 128) (e' : Fin 512) :
    matmul dot_S128x10000_S10000x512_S128x512_1_0_0_1_n_n none xnt hw (constant S128x512 .f32 0x00000000#32) (ix2 d e')
      = ∑ n' : Fin 10000, xnt (ix2 d n') * hw (ix2 n' e') := by
  simp only [matmul]
  rw [Ideal.matmul_constant_zero_apply, ← Equiv.sum_comp (ValueIdx.contrEquiv1 dot_S128x10000_S10000x512_S128x512_1_0_0_1_n_n 10000 rfl rfl).symm]
  refine Finset.sum_congr rfl fun k _ => ?_
  have hk := ValueIdx.contrEquiv1_symm_val dot_S128x10000_S10000x512_S128x512_1_0_0_1_n_n 10000 rfl rfl k
  have el : dot_S128x10000_S10000x512_S128x512_1_0_0_1_n_n.lhsIdx (ix2 d e') ((ValueIdx.contrEquiv1 dot_S128x10000_S10000x512_S128x512_1_0_0_1_n_n 10000 rfl rfl).symm k) = ix2 d k := funext fun a => Fin.ext (by
    match a with
    | ⟨0, _⟩ => exact lhs_nodes_0 _ _
    | ⟨1, _⟩ => exact (lhs_nodes_1 _ _).trans hk)
  have er : dot_S128x10000_S10000x512_S128x512_1_0_0_1_n_n.rhsIdx (ix2 d e') ((ValueIdx.contrEquiv1 dot_S128x10000_S10000x512_S128x512_1_0_0_1_n_n 10000 rfl rfl).symm k) = ix2 k e' := funext fun a => Fin.ext (by
    match a with
    | ⟨0, _⟩ => exact (rhs_nodes_0 _ _).trans hk
    | ⟨1, _⟩ => exact rhs_nodes_1 _ _)
  rw [el, er]

/-! ## The second product: the window (10000 × 512) against the 128 × 512 product, both contracted on the columns -/

theorem lhs_cols_0 (i : S10000x128.Idx) (q : dot_S10000x512_S128x512_S10000x128_1_1_0_0_n_n.contr.Idx) :
    (dot_S10000x512_S128x512_S10000x128_1_1_0_0_n_n.lhsIdx i q 0).val = (i 0).val := by
  unfold DotDims.lhsIdx
  rw [dif_neg (show ¬(0 : Fin S10000x512.rank) ∈ dot_S10000x512_S128x512_S10000x128_1_1_0_0_n_n.lhsBatch by decide), dif_pos (show (0 : Fin S10000x512.rank) ∈ dot_S10000x512_S128x512_S10000x128_1_1_0_0_n_n.lhsNonContracting by decide)]
  rfl
theorem lhs_cols_1 (i : S10000x128.Idx) (q : dot_S10000x512_S128x512_S10000x128_1_1_0_0_n_n.contr.Idx) :
    (dot_S10000x512_S128x512_S10000x128_1_1_0_0_n_n.lhsIdx i q 1).val = (q ⟨0, by decide⟩).val :=
  dot_S10000x512_S128x512_S10000x128_1_1_0_0_n_n.lhsIdx_val_of_single rfl i q
theorem rhs_cols_0 (i : S10000x128.Idx) (q : dot_S10000x512_S128x512_S10000x128_1_1_0_0_n_n.contr.Idx) :
    (dot_S10000x512_S128x512_S10000x128_1_1_0_0_n_n.rhsIdx i q 0).val = (i 1).val := by
  unfold DotDims.rhsIdx
  rw [dif_neg (show ¬(0 : Fin S128x512.rank) ∈ dot_S10000x512_S128x512_S10000x128_1_1_0_0_n_n.rhsBatch by decide), dif_pos (show (0 : Fin S128x512.rank) ∈ dot_S10000x512_S128x512_S10000x128_1_1_0_0_n_n.rhsNonContracting by decide)]
  rfl
theorem rhs_cols_1 (i : S10000x128.Idx) (q : dot_S10000x512_S128x512_S10000x128_1_1_0_0_n_n.contr.Idx) :
    (dot_S10000x512_S128x512_S10000x128_1_1_0_0_n_n.rhsIdx i q 1).val = (q ⟨0, by decide⟩).val :=
  dot_S10000x512_S128x512_S10000x128_1_1_0_0_n_n.rhsIdx_val_of_single rfl i q

/-- The second product at `(n, d)`: the sum over the window's columns of incidence × the 128 × 512 operand. -/
theorem cols_product_apply (hw : FVec Ideal S10000x512 .f32) (y : FVec Ideal S128x512 .f32) (n : Fin 10000) (d : Fin 128) :
    matmul dot_S10000x512_S128x512_S10000x128_1_1_0_0_n_n none hw y (constant S10000x128 .f32 0x00000000#32) (ix2 n d)
      = ∑ e' : Fin 512, hw (ix2 n e') * y (ix2 d e') := by
  simp only [matmul]
  rw [Ideal.matmul_constant_zero_apply, ← Equiv.sum_comp (ValueIdx.contrEquiv1 dot_S10000x512_S128x512_S10000x128_1_1_0_0_n_n 512 rfl rfl).symm]
  refine Finset.sum_congr rfl fun k _ => ?_
  have hk := ValueIdx.contrEquiv1_symm_val dot_S10000x512_S128x512_S10000x128_1_1_0_0_n_n 512 rfl rfl k
  have el : dot_S10000x512_S128x512_S10000x128_1_1_0_0_n_n.lhsIdx (ix2 n d) ((ValueIdx.contrEquiv1 dot_S10000x512_S128x512_S10000x128_1_1_0_0_n_n 512 rfl rfl).symm k) = ix2 n k := funext fun a => Fin.ext (by
    match a with
    | ⟨0, _⟩ => exact lhs_cols_0 _ _
    | ⟨1, _⟩ => exact (lhs_cols_1 _ _).trans hk)
  have er : dot_S10000x512_S128x512_S10000x128_1_1_0_0_n_n.rhsIdx (ix2 n d) ((ValueIdx.contrEquiv1 dot_S10000x512_S128x512_S10000x128_1_1_0_0_n_n 512 rfl rfl).symm k) = ix2 d k := funext fun a => Fin.ext (by
    match a with
    | ⟨0, _⟩ => exact rhs_cols_0 _ _
    | ⟨1, _⟩ => exact (rhs_cols_1 _ _).trans hk)
  rw [el, er]

/-! ## The three stored values -/

/-- The accumulator's first value is zero everywhere. -/
theorem zeroed_apply (i : S10000x128.Idx) : k0_pay1 (F := Ideal) i = 0 := by
  unfold k0_pay1
  show Ideal.ofBits .f32 0x00000000#32 = 0
  exact Ideal.ofBits_zero_f32

/-- What a window stores: the accumulator plus the window's contribution. -/
theorem window_apply (hw : Vec Ideal S10000x512 .f32) (xnt : Vec Ideal S128x10000 .f32) (de : Vec Ideal S1x512 .f32)
    (acc : Vec Ideal S10000x128 .f32) (n : Fin 10000) (d : Fin 128) :
    k0_pay2 (F := Ideal) hw xnt de acc (ix2 n d)
      = acc (ix2 n d) + ∑ e' : Fin 512, hw (ix2 n e') * (de (ix2 (0 : Fin 1) e') * ∑ n' : Fin 10000, xnt (ix2 d n') * hw (ix2 n' e')) := by
  unfold k0_pay2
  simp only [shapeCast_self]
  rw [addf_apply, cols_product_apply]
  refine congrArg (acc (ix2 n d) + ·) (Finset.sum_congr rfl fun e' _ => ?_)
  rw [mulf_apply, ValueIdx.broadcastTo_1b_ab_apply, nodes_product_apply]

/-- What the last window stores on top: row `n` times the column entry of `n`. -/
theorem finish_apply (dv : Vec Ideal S10000x1 .bf16) (v : Vec Ideal S10000x128 .f32) (n : Fin 10000) (d : Fin 128) :
    k0_pay3 (F := Ideal) dv v (ix2 n d) = dv (ix2 n (0 : Fin 1)) * v (ix2 n d) := by
  unfold k0_pay3
  simp only [shapeCast_self]
  rw [mulf_apply, ValueIdx.broadcastTo_a1_ab_apply]
  rfl

end Cert.KernelIdeal.Bridge

end
-- ==== Proof.WindowBlocks.lean ====
/-
  What the kernel's region finds in its windows, in terms of the four arguments.

  Before the region the host code prepares three arrays: the scaled features transposed (`xnt d n' = Dv n' · X n' d`:
  the node factor broadcast along each row, times the features, transposed), the node factors as a column (a reshape,
  then a change of float format, the identity here) and the hyperedge factors as one row (a reshape). The incidence
  matrix is passed as it is.

  At grid point `t` the region stages: the whole transposed array, the whole column, and the `t`-th window of 512
  columns of the incidence matrix and of the row of hyperedge factors — place `e'` of the window is column
  `512·t + e'`.
-/
import proofs.«129705_g12275016532625_cont_fleet_158_22_alg».proof.Proof.Gen.KernelIdeal.Frame
import proofs.«129705_g12275016532625_cont_fleet_158_22_alg».proof.Proof.WindowPayloads
import proofs.«129705_g12275016532625_cont_fleet_158_22_alg».proof.Proof.HypergraphSpec
import Idealize.ShloMosaic.Lib.StableHlo.Run

noncomputable section

namespace Cert.KernelIdeal.Bridge

open Cert.KernelIdeal Cert.KernelIdeal.Gen Idealize.ShloMosaic Idealize.ShloMosaic.ValueIdx Idealize.ShloMosaic.TcCoe
open Idealize.SL.Sem Idealize.ShloMosaic.StableHlo
open Cert.Hypergraph

variable (m : (ℓ : Loc nD τ sig) → Buf (Elt Ideal) ℓ)

/-! ## The arguments and the arrays the region finds, at their literal types -/

/-- The node features. -/
abbrev argX (c : Dev nD) : FVec Ideal S10000x128 .f32 := m ((c : Thread nD τ).loc main_arg0)
/-- The incidence matrix. -/
abbrev argH (c : Dev nD) : FVec Ideal S10000x4096 .f32 := m ((c : Thread nD τ).loc main_arg1)
/-- The node factors. -/
abbrev argDv (c : Dev nD) : FVec Ideal S10000 .f32 := m ((c : Thread nD τ).loc main_arg2)
/-- The hyperedge factors. -/
abbrev argDe (c : Dev nD) : FVec Ideal S4096 .f32 := m ((c : Thread nD τ).loc main_arg3)

/-- The scaled features, transposed, as the region finds them. -/
abbrev xntArr (c : Dev nD) : FVec Ideal S128x10000 .f32 := V m c main_call0_v3
/-- The incidence matrix as the region finds it. -/
abbrev hArr (c : Dev nD) : FVec Ideal S10000x4096 .f32 := V m c main_arg1
/-- The node factors as a column, as the region finds them. -/
abbrev dvArr (c : Dev nD) : FVec Ideal S10000x1 .bf16 := V m c main_call0_v5
/-- The hyperedge factors as a row, as the region finds them. -/
abbrev deArr (c : Dev nD) : FVec Ideal S1x4096 .f32 := V m c main_call0_v6

/-- Each window's block at point `t`. -/
abbrev xntBlk (c : Dev nD) (t : Fin cfg0.N) : FVec Ideal S128x10000 .f32 := iblk m c 0 t
abbrev hBlk (c : Dev nD) (t : Fin cfg0.N) : FVec Ideal S10000x512 .f32 := iblk m c 1 t
abbrev dvBlk (c : Dev nD) (t : Fin cfg0.N) : FVec Ideal S10000x1 .bf16 := iblk m c 2 t
abbrev deBlk (c : Dev nD) (t : Fin cfg0.N) : FVec Ideal S1x512 .f32 := iblk m c 3 t

/-! ## The prepared arrays at an index -/

/-- A vector spread over the rows of a column and then along each row reads, at `(n, d)`, the vector at `n`. -/
theorem rowFactor_apply (x : FVec Ideal S10000 .f32) (n : Fin 10000) (d : Fin 128) :
    broadcastInDim S10000x128 ![0, 1] bcast_S10000x1_S10000x128_0_1 (broadcastInDim S10000x1 ![0] bcast_S10000_S10000x1_0 x) (ix2 n d)
      = x (ix1 n) := by
  rw [broadcastInDim_apply _ bcast_S10000x1_S10000x128_0_1 _ (ix2 n d) (ix2 n (0 : Fin 1)) (fun a => match a with
    | ⟨0, _⟩ => by show n.val = if (10000 : Nat) = 1 then 0 else n.val; rw [if_neg (by decide)]
    | ⟨1, _⟩ => by show 0 = if (1 : Nat) = 1 then 0 else d.val; rw [if_pos rfl])]
  exact broadcastInDim_apply _ bcast_S10000_S10000x1_0 x (ix2 n (0 : Fin 1)) (ix1 n) (fun a => match a with
    | ⟨0, _⟩ => by show n.val = if (10000 : Nat) = 1 then 0 else n.val; rw [if_neg (by decide)])

theorem xntArr_eq (c : Dev nD) :
    xntArr m c = transpose S128x10000 [1, 0] (mulf (F := Ideal) (broadcastInDim S10000x128 ![0, 1] bcast_S10000x1_S10000x128_0_1
      (broadcastInDim S10000x1 ![0] bcast_S10000_S10000x1_0 (argDv m c))) (argX m c)) transposes_S10000x128_S128x10000_1_0 := by
  show (V m c main_call0_v3 : S128x10000.Idx → EReal) = _
  dsimp only [V, hostOps0]
  after_results
  rfl

/-- The transposed array at `(d, n')` is the scaled feature of node `n'`. -/
theorem xntArr_apply (c : Dev nD) (d : Fin 128) (n' : Fin 10000) :
    xntArr m c (ix2 d n') = scaled (argX m c) (argDv m c) n' d := by
  rw [xntArr_eq, ValueIdx.transpose_ix2_apply, mulf_apply, rowFactor_apply]
  rfl

theorem dvArr_eq (c : Dev nD) :
    dvArr m c = truncf (F := Ideal) .bf16 (shapeCast S10000x1 (argDv m c) shapeCasts_S10000_S10000x1) bitsLt_bf16_f32 := by
  show (V m c main_call0_v5 : S10000x1.Idx → EReal) = _
  dsimp only [V, hostOps0]
  after_results
  rfl

/-- The column at `(n, 0)` is the node factor of `n`. -/
theorem dvArr_apply (c : Dev nD) (n : Fin 10000) : dvArr m c (ix2 n (0 : Fin 1)) = argDv m c (ix1 n) := by
  rw [dvArr_eq, truncf_apply, ValueIdx.shapeCast_a_a1_apply]

theorem deArr_eq (c : Dev nD) : deArr m c = shapeCast S1x4096 (argDe m c) shapeCasts_S4096_S1x4096 := by
  show (V m c main_call0_v6 : S1x4096.Idx → EReal) = _
  dsimp only [V, hostOps0]
  after_results
  rfl

/-- The row at `(0, e)` is the factor of hyperedge `e`. -/
theorem deArr_apply (c : Dev nD) (e : Fin 4096) : deArr m c (ix2 (0 : Fin 1) e) = argDe m c (ix1 e) := by
  rw [deArr_eq, ValueIdx.shapeCast_a_1a_apply]

theorem hArr_eq (c : Dev nD) : hArr m c = argH m c := V_main_arg1 m c

/-! ## The blocks at a point -/

/-- The printed index maps, decided over the grid: the incidence matrix's and the row's windows move along the columns
    with the point; the other two windows stay at the origin. -/
theorem index_facts : ∀ t : Fin cfg0.N,
    win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = 0
    ∧ win0_3.index t (0 : Fin 2) = 0 ∧ win0_3.index t (1 : Fin 2) = t.val :=
  (by decide +kernel : ∀ t : Fin grid0.N, _)

theorem point_lt (t : Fin cfg0.N) : t.val < 8 := lt_of_lt_of_eq t.isLt (show cfg0.N = 8 from N_0)

/-- The transposed array is staged whole. -/
theorem xntBlk_apply (c : Dev nD) (t : Fin cfg0.N) (d : Fin 128) (n' : Fin 10000) :
    xntBlk m c t (ix2 d n') = xntArr m c (ix2 d n') := by
  obtain ⟨h0, h1, -⟩ := index_facts t
  unfold xntBlk iblk
  rw [View.read_apply]
  show V m c main_call0_v3 _ = V m c main_call0_v3 _
  refine congrArg (V m c main_call0_v3) (funext fun a => Fin.ext ?_)
  match a with
  | ⟨0, _⟩ => show win0_0.index t 0 * 128 + 1 * d.val = d.val; rw [h0]; omega
  | ⟨1, _⟩ => show win0_0.index t 1 * 10000 + 1 * n'.val = n'.val; rw [h1]; omega

/-- The incidence matrix's window at point `t`: place `e'` is column `512·t + e'`. -/
theorem hBlk_apply (c : Dev nD) (t : Fin cfg0.N) (n : Fin 10000) (e' : Fin 512) :
    hBlk m c t (ix2 n e') = argH m c (ix2 n (col t.val e')) := by
  obtain ⟨-, -, h0, h1, -⟩ := index_facts t
  have ht := point_lt t
  rw [← hArr_eq]
  unfold hBlk iblk
  rw [View.read_apply]
  show V m c main_arg1 _ = V m c main_arg1 _
  refine congrArg (V m c main_arg1) (funext fun a => Fin.ext ?_)
  match a with
  | ⟨0, _⟩ => show win0_1.index t 0 * 10000 + 1 * n.val = n.val; rw [h0]; omega
  | ⟨1, _⟩ => show win0_1.index t 1 * 512 + 1 * e'.val = (col t.val e').val; rw [h1, col_val _ ht]; omega

/-- The column is staged whole. -/
theorem dvBlk_apply (c : Dev nD) (t : Fin cfg0.N) (n : Fin 10000) :
    dvBlk m c t (ix2 n (0 : Fin 1)) = dvArr m c (ix2 n (0 : Fin 1)) := by
  obtain ⟨-, -, -, -, h0, h1, -⟩ := index_facts t
  unfold dvBlk iblk
  rw [View.read_apply]
  show V m c main_call0_v5 _ = V m c main_call0_v5 _
  refine congrArg (V m c main_call0_v5) (funext fun a => Fin.ext ?_)
  match a with
  | ⟨0, _⟩ => show win0_2.index t 0 * 10000 + 1 * n.val = n.val; rw [h0]; omega
  | ⟨1, _⟩ => show win0_2.index t 1 * 1 + 1 * 0 = 0; rw [h1]

/-- The row's window at point `t`: place `e'` is column `512·t + e'`. -/
theorem deBlk_apply (c : Dev nD) (t : Fin cfg0.N) (e' : Fin 512) :
    deBlk m c t (ix2 (0 : Fin 1) e') = deArr m c (ix2 (0 : Fin 1) (col t.val e')) := by
  obtain ⟨-, -, -, -, -, -, h0, h1⟩ := index_facts t
  have ht := point_lt t
  unfold deBlk iblk
  rw [View.read_apply]
  show V m c main_call0_v6 _ = V m c main_call0_v6 _
  refine congrArg (V m c main_call0_v6) (funext fun a => Fin.ext ?_)
  match a with
  | ⟨0, _⟩ => show win0_3.index t 0 * 1 + 1 * 0 = 0; rw [h0]
  | ⟨1, _⟩ => show win0_3.index t 1 * 512 + 1 * e'.val = (col t.val e').val; rw [h1, col_val _ ht]; omega

end Cert.KernelIdeal.Bridge

end
-- ==== Proof.FoldIsConv.lean ====
/-
  The kernel's result array is the hypergraph convolution of its arguments.

  The accumulator is carried over the grid's 8 points. The first point stores zero plus its window's contribution, each
  of the next six adds its window's, and the last adds its window's and then multiplies every row `n` by the node
  factor of `n`. So after the seventh point the accumulator holds the sum of seven windows' contributions, and the
  array the region writes back holds the node factor times the sum of all eight — which is the convolution, by the law
  that splits the sum over the 4096 hyperedges into the windows.
-/
import proofs.«129705_g12275016532625_cont_fleet_158_22_alg».proof.Proof.Gen.KernelIdeal.Value
import proofs.«129705_g12275016532625_cont_fleet_158_22_alg».proof.Proof.WindowBlocks

noncomputable section

namespace Cert.KernelIdeal.Bridge

open Cert.KernelIdeal Cert.KernelIdeal.Gen Idealize.ShloMosaic Idealize.ShloMosaic.ValueIdx Idealize.ShloMosaic.TcCoe
open Idealize.SL.Sem
open Cert.Hypergraph

variable (m : (ℓ : Loc nD τ sig) → Buf (Elt Ideal) ℓ)

/-- What the window of point `s` adds to the accumulator, as an array. -/
def addend (c : Dev nD) (s : ℕ) : S10000x128.Idx → EReal := fun i =>
  windowTerm (xntArr m c) (argH m c) (deArr m c) s (i 0) (i 1)

theorem addend_ix2 (c : Dev nD) (s : ℕ) (n : Fin 10000) (d : Fin 128) :
    addend m c s (ix2 n d) = windowTerm (xntArr m c) (argH m c) (deArr m c) s n d := rfl

/-- A window's store at point `t`, over what the accumulator held: that plus the window's contribution. -/
theorem window_step (c : Dev nD) (t : Fin cfg0.N) (acc : Vec Ideal S10000x128 .f32) (n : Fin 10000) (d : Fin 128) :
    k0_pay2 (F := Ideal) (hBlk m c t) (xntBlk m c t) (deBlk m c t) acc (ix2 n d) = acc (ix2 n d) + addend m c t.val (ix2 n d) := by
  refine (window_apply (hBlk m c t) (xntBlk m c t) (deBlk m c t) acc n d).trans ?_
  rw [addend_ix2]
  unfold windowTerm
  refine congrArg (acc (ix2 n d) + ·) (Finset.sum_congr rfl fun e' _ => ?_)
  rw [hBlk_apply, deBlk_apply]
  refine congrArg (fun z => argH m c (ix2 n (col t.val e')) * (deArr m c (ix2 (0 : Fin 1) (col t.val e')) * z))
    (Finset.sum_congr rfl fun n' _ => ?_)
  rw [xntBlk_apply, hBlk_apply]

/-- The first point's store: zero plus its window's contribution. -/
theorem first_point (c : Dev nD) (h : 0 < cfg0.N) (i : S10000x128.Idx) :
    Value.reset4 m c 0 h i = 0 + addend m c 0 i := by
  obtain ⟨n, d, rfl⟩ : ∃ (n : Fin 10000) (d : Fin 128), i = ix2 n d := ⟨i 0, i 1, eq_ix2 i⟩
  unfold Value.reset4
  refine (window_step m c ⟨0, h⟩ (k0_pay1 (F := Ideal)) n d).trans ?_
  rw [zeroed_apply]

/-- A point after the first and before the last adds its window's contribution. -/
theorem middle_point (c : Dev nD) (s : ℕ) (h : s < cfg0.N) (acc : S10000x128.Idx → EReal) (i : S10000x128.Idx)
    (h0 : 0 < s) (h6 : s ≤ 0 + 6) : Value.step4 m c s h acc i = acc i + addend m c s i := by
  obtain ⟨n, d, rfl⟩ : ∃ (n : Fin 10000) (d : Fin 128), i = ix2 n d := ⟨i 0, i 1, eq_ix2 i⟩
  unfold Value.step4
  rw [if_pos (by omega)]
  exact window_step m c ⟨s, h⟩ acc n d

/-- The last point adds its window's contribution and multiplies row `n` by the node factor of `n`. -/
theorem last_point (c : Dev nD) (h : 7 < cfg0.N) (acc : S10000x128.Idx → EReal) (n : Fin 10000) (d : Fin 128) :
    Value.step4 m c 7 h acc (ix2 n d) = dvArr m c (ix2 n (0 : Fin 1)) * (acc (ix2 n d) + addend m c 7 (ix2 n d)) := by
  unfold Value.step4
  rw [if_neg (by omega), if_pos (by omega)]
  refine (finish_apply (dvBlk m c ⟨7, h⟩) (k0_pay2 (F := Ideal) (hBlk m c ⟨7, h⟩) (xntBlk m c ⟨7, h⟩) (deBlk m c ⟨7, h⟩) acc) n d).trans ?_
  rw [dvBlk_apply, window_step]

/-- After the seventh point the accumulator holds the first seven windows' contributions. -/
theorem seven_windows (c : Dev nD) (h : 0 + 6 < cfg0.N) (i : S10000x128.Idx) :
    Pipeline.accAt (Value.reset4 m c) (Value.step4 m c) 0 6 h i = ∑ s ∈ Finset.range 7, addend m c s i := by
  have key := Pipeline.accAt_add_apply (ι := S10000x128.Idx) (β := EReal) (Value.reset4 m c) (Value.step4 m c)
    (fun _ => 0) (addend m c) 0 6 (fun h i => first_point m c h i)
    (fun s h acc i h0 h6 => middle_point m c s h acc i h0 h6) 6 (le_refl 6) h i
  rw [key, zero_add]
  exact Finset.sum_congr rfl fun s _ => by rw [Nat.zero_add]

/-- THE RESULT ARRAY is the convolution of the four arguments. -/
theorem result_is_conv (c : Dev nD) : Value.G4 m c = conv (argX m c) (argH m c) (argDv m c) (argDe m c) := by
  funext i
  obtain ⟨n, d, rfl⟩ : ∃ (n : Fin 10000) (d : Fin 128), i = ix2 n d := ⟨i 0, i 1, eq_ix2 i⟩
  have hN : cfg0.N = 8 := N_0
  have hn : n.val < 10000 := n.isLt
  have hd : d.val < 128 := d.isLt
  have hr : Value.run4Of (ix2 n d) = 0 := by
    show 1 * (n.val / 10000 - 0) + 1 * (d.val / 128 - 0) = 0
    omega
  have hl : Value.loc4Of (ix2 n d) = ix2 n d := funext fun a => Fin.ext (by
    match a with
    | ⟨0, _⟩ => show n.val % 10000 = n.val; omega
    | ⟨1, _⟩ => show d.val % 128 = d.val; omega)
  unfold Value.G4
  rw [dif_pos (by rw [hr, hN]; decide), hl]
  have e : ∀ (b : ℕ) (h : b + 7 < cfg0.N) (h' : 0 + 7 < cfg0.N), b = 0 →
      Pipeline.accAt (Value.reset4 m c) (Value.step4 m c) b 7 h = Pipeline.accAt (Value.reset4 m c) (Value.step4 m c) 0 7 h' := by
    intro b h h' hb; subst hb; rfl
  rw [e _ _ (by rw [hN]; decide) (by rw [hr])]
  rw [Pipeline.accAt_succ]
  refine (last_point m c (by rw [hN]; decide) _ n d).trans ?_
  rw [seven_windows, conv_ix2]
  have hsum : ∑ s ∈ Finset.range 8, addend m c s (ix2 n d)
      = ∑ s ∈ Finset.range 7, addend m c s (ix2 n d) + addend m c 7 (ix2 n d) :=
    Finset.sum_range_succ (fun s => addend m c s (ix2 n d)) 7
  rw [← hsum]
  exact windows_eq_conv (argX m c) (argH m c) (argDv m c) (argDe m c) (xntArr m c) (deArr m c) (dvArr m c)
    (fun d n' => xntArr_apply m c d n') (fun e => deArr_apply m c e) (fun n => dvArr_apply m c n) n d

end Cert.KernelIdeal.Bridge

end
-- ==== Proof.lean ====
/-
  The hypergraph convolution `Dv · (H · (De · (Hᵀ · (Dv · X))))`, computed by a kernel that walks the 4096 hyperedges in
  8 windows of 512 columns and accumulates, against the plain chain of two matrix products.

  At node `n` and feature `d` both programs compute, on the extended reals,

      Dv n · Σ_e H n e · ( De e · Σ_n' H n' e · (Dv n' · X n' d) ).

  The reference reads so operation by operation. The kernel holds the scaled features transposed, adds to an
  accumulator that starts at zero the contribution `Σ_{e' < 512} H n (512 t + e') · (De (512 t + e') · Σ_n' xnt d n' ·
  H n' (512 t + e'))` of each window `t`, and multiplies by `Dv n` at the last window; the two arrangements agree
  because a sum over 4096 = 8 · 512 columns is the sum of the windows' sums and the product commutes — laws of a
  commutative monoid, so the precondition (finite inputs) is not used by the value claim.

  The programs terminate without fault and leave their arguments unchanged: for the two kernel programs that is their
  frame; for the reference it is its run with the result dropped. The idealization rewrote nothing, so there is
  nothing to preserve.
-/
import proofs.«129705_g12275016532625_cont_fleet_158_22_alg».proof.Defs
import proofs.«129705_g12275016532625_cont_fleet_158_22_alg».proof.Proof.Gen.Kernel.Frame
import proofs.«129705_g12275016532625_cont_fleet_158_22_alg».proof.Proof.Gen.KernelIdeal.Value
import proofs.«129705_g12275016532625_cont_fleet_158_22_alg».proof.Proof.Gen.Pre_finite_inputs
import proofs.«129705_g12275016532625_cont_fleet_158_22_alg».proof.Proof.Gen.ReferenceIdeal.Run
import proofs.«129705_g12275016532625_cont_fleet_158_22_alg».proof.Proof.RefIsConv
import proofs.«129705_g12275016532625_cont_fleet_158_22_alg».proof.Proof.FoldIsConv
import Idealize.ShloMosaic.Adequacy
import Idealize.ShloMosaic.Init

noncomputable section

namespace Cert.Proof

open Idealize.ShloMosaic Idealize.SL.Sem

theorem frame_KernelIdeal : frame_KernelIdeal := fun m ρ _ =>
  (θ_run Cert.KernelIdeal.defs _ _).mono (fun _ h c => (h c).2) (Cert.KernelIdeal.Value.run (F := Ideal) m ρ)

theorem frame_ReferenceIdeal : frame_ReferenceIdeal := fun m ρ _ =>
  (θ_run Cert.ReferenceIdeal.defs _ _).mono (fun _ h c => (h c).2) (Cert.ReferenceIdeal.Value.run (F := Ideal) m ρ)

/-- Both programs end at the convolution of the (agreeing) arguments: the kernel's result array is the fold of its 8
    windows, which is the convolution; the reference's last operation is the convolution read operation by operation. -/
theorem algebraic_KernelIdeal_ReferenceIdeal : algebraic_KernelIdeal_ReferenceIdeal := by
  intro m ρ m' ρ' _ hagree
  refine ⟨fun c => Cert.Hypergraph.conv (Cert.KernelIdeal.Bridge.argX m c) (Cert.KernelIdeal.Bridge.argH m c)
    (Cert.KernelIdeal.Bridge.argDv m c) (Cert.KernelIdeal.Bridge.argDe m c), ?_, ?_⟩
  · exact (θ_run Cert.KernelIdeal.defs _ _).mono
      (fun _ h c => ⟨(h c).1.trans (Cert.KernelIdeal.Bridge.result_is_conv m c), (h c).2⟩)
      (Cert.KernelIdeal.Value.run (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v11_eq, Cert.ReferenceIdeal.RefValue.ref_is_conv,
      (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
